-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256 : Shape := ⟨3, ![8, 256, 256]⟩
abbrev S512x128 : Shape := ⟨2, ![512, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S8x256x256 : S_.BroadcastsInDim S8x256x256 (![] : Fin 0 → Fin S8x256x256.rank)
  reducesTo_S8x256x256_S_d0_1_2 : S8x256x256.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8x256x256 .f32) (main_arg1 : FVec F S512x128 .f32) (main_arg2 : FVec F S128 .f32) (main_arg3 : FVec F S128x8 .f32) (main_arg4 : FVec F S8 .f32) : IVec S_ 1 :=
  let main_v0 : FVec F S8x256x256 .f32 := Host.absf main_arg0
  let main_cst : FVec F S_ .f32 := constant S_ .f32 0x7F800000#32
  let main_v1 : FVec F S8x256x256 .f32 := broadcastInDim S8x256x256 ![] bcast_S_S8x256x256 main_cst
  let main_v2 : IVec S8x256x256 1 := cmpf .olt main_v0 main_v1
  let main_c : IVec S_ 1 := constantI S_ 1 1#1
  let main_v3 : IVec S_ 1 := (fun x v => Host.reduce IntOp.andi x v reducesTo_S8x256x256_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_v13 main_v16
-- ==== Kernel.lean ====
abbrev S8x256x256 : Shape := ⟨3, ![8, 256, 256]⟩
abbrev S512x128 : Shape := ⟨2, ![512, 128]⟩
abbrev S128 : Shape := ⟨1, ![128]⟩
abbrev S128x8 : Shape := ⟨2, ![128, 8]⟩
abbrev S8 : Shape := ⟨1, ![8]⟩
abbrev S256x128 : Shape := ⟨2, ![256, 128]⟩
abbrev S1x128 : Shape := ⟨2, ![1, 128]⟩
abbrev S1x8 : Shape := ⟨2, ![1, 8]⟩
abbrev S8x256x128 : Shape := ⟨3, ![8, 256, 128]⟩
abbrev S1x256x256 : Shape := ⟨3, ![1, 256, 256]⟩
abbrev S1x256x128 : Shape := ⟨3, ![1, 256, 128]⟩
abbrev S256x256 : Shape := ⟨2, ![256, 256]⟩
abbrev S8x256x256x8 : Shape := ⟨4, ![8, 256, 256, 8]⟩
abbrev S1x64x128 : Shape := ⟨3, ![1, 64, 128]⟩
abbrev S1x128x128 : Shape := ⟨3, ![1, 128, 128]⟩
abbrev S1x64x128x8 : Shape := ⟨4, ![1, 64, 128, 8]⟩
abbrev S64x128 : Shape := ⟨2, ![64, 128]⟩
abbrev S128x128 : Shape := ⟨2, ![128, 128]⟩
abbrev S64x1x128 : Shape := ⟨3, ![64, 1, 128]⟩
abbrev S64x128x128 : Shape := ⟨3, ![64, 128, 128]⟩
abbrev S1x1x128 : Shape := ⟨3, ![1, 1, 128]⟩
abbrev S8192x128 : Shape := ⟨2, ![8192, 128]⟩
abbrev S8192x8 : Shape := ⟨2, ![8192, 8]⟩
abbrev S64x128x8 : Shape := ⟨3, ![64, 128, 8]⟩
abbrev S1x1x8 : Shape := ⟨3, ![1, 1, 8]⟩

abbrev nBuf : Space → Nat
  | .hbm => 12
  | .vmem => 17
  | .smem => 0
  | _ => 0

abbrev bufTy : (tb : Table) → Fin (tcTables nBuf tb) → BufTy
  | .hbm, ⟨0, _⟩ => ⟨S8x256x256, .f32⟩
  | .hbm, ⟨1, _⟩ => ⟨S512x128, .f32⟩
  | .hbm, ⟨2, _⟩ => ⟨S128, .f32⟩
  | .hbm, ⟨3, _⟩ => ⟨S128x8, .f32⟩
  | .hbm, ⟨4, _⟩ => ⟨S8, .f32⟩
  | .hbm, ⟨5, _⟩ => ⟨S256x128, .f32⟩
  | .hbm, ⟨6, _⟩ => ⟨S256x128, .f32⟩
  | .hbm, ⟨7, _⟩ => ⟨S1x128, .f32⟩
  | .hbm, ⟨8, _⟩ => ⟨S1x8, .f32⟩
  | .hbm, ⟨9, _⟩ => ⟨S8x256x128, .f32⟩
  | .hbm, ⟨10, _⟩ => ⟨S8x256x128, .f32⟩
  | .hbm, ⟨11, _⟩ => ⟨S8x256x256x8, .f32⟩
  | .local _ .vmem, ⟨0, _⟩ => ⟨S1x256x256, .f32⟩
  | .local _ .vmem, ⟨1, _⟩ => ⟨S1x256x256, .f32⟩
  | .local _ .vmem, ⟨2, _⟩ => ⟨S256x128, .f32⟩
  | .local _ .vmem, ⟨3, _⟩ => ⟨S256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x64x128, .f32⟩
  | .local _ .vmem, ⟨9, _⟩ => ⟨S1x64x128, .f32⟩
  | .local _ .vmem, ⟨10, _⟩ => ⟨S1x128x128, .f32⟩
  | .local _ .vmem, ⟨11, _⟩ => ⟨S1x128x128, .f32⟩
  | .local _ .vmem, ⟨12, _⟩ => ⟨S1x128, .f32⟩
  | .local _ .vmem, ⟨13, _⟩ => ⟨S128x8, .f32⟩
  | .local _ .vmem, ⟨14, _⟩ => ⟨S1x8, .f32⟩
  | .local _ .vmem, ⟨15, _⟩ => ⟨S1x64x128x8, .f32⟩
  | .local _ .vmem, ⟨16, _⟩ => ⟨S1x64x128x8, .f32⟩
  | _, _ => ⟨S8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x64x128x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

class Facts₀ : Prop where
  slices_S512x128_S256x128_0_0 : S512x128.Slices ![0, 0] S256x128
  slices_S512x128_S256x128_256_0 : S512x128.Slices ![256, 0] S256x128
  shapeCasts_S128_S1x128 : S128.ShapeCasts S1x128
  shapeCasts_S8_S1x8 : S8.ShapeCasts S1x8
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S128_S1x1x128 : S128.ShapeCasts S1x1x128
  broadcasts_S1x1x128_S64x128x128 : S1x1x128.Broadcasts S64x128x128
  shapeCasts_S64x128x128_S8192x128 : S64x128x128.ShapeCasts S8192x128
  inb_S128x8_S128x8_0_0 : ∀ a, (![0, 0] : Fin 2 → Nat) a + S128x8.size a ≤ S128x8.size a
  h_S128x8 : 0 < S128x8.numel
  shapeCasts_S8192x8_S64x128x8 : S8192x8.ShapeCasts S64x128x8
  inb_S1x8_S1x8_0_0 : ∀ a, (![0, 0] : Fin 2 → Nat) a + S1x8.size a ≤ S1x8.size a
  h_S1x8 : 0 < S1x8.numel
  shapeCasts_S1x8_S8 : S1x8.ShapeCasts S8
  shapeCasts_S8_S1x1x8 : S8.ShapeCasts S1x1x8
  broadcasts_S1x1x8_S64x128x8 : S1x1x8.Broadcasts S64x128x8
  inb_S1x64x128x8_S1x64x128x8_0_0_0_0 : ∀ a, (![0, 0, 0, 0] : Fin 4 → Nat) a + S1x64x128x8.size a ≤ S1x64x128x8.size a
  h_S1x64x128x8 : 0 < S1x64x128x8.numel
  shapeCasts_S1x64x128x8_S64x128x8 : S1x64x128x8.ShapeCasts S64x128x8
  shapeCasts_S64x128x8_S1x64x128x8 : S64x128x8.ShapeCasts S1x64x128x8
  dot_S256x256_S256x128_S256x128_1_0_0_1_n_n_wf : DotDims.WF S256x256 S256x128 S256x128 [1] [0] [0] [1] [] []
  dot_S8192x128_S128x8_S8192x8_1_0_0_1_n_n_wf : DotDims.WF S8192x128 S128x8 S8192x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x256x256.size a
  hwx0_0 : ∀ i : grid0.Coords, EltTy.bits .f32 = 32 ∨ (Rect.block (s := S8x256x256) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x256x128.size a
  hwx0_3 : ∀ i : grid0.Coords, EltTy.bits .f32 = 32 ∨ (Rect.block (s := S8x256x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S8x256x128.size a
  hwx0_4 : ∀ i : grid0.Coords, EltTy.bits .f32 = 32 ∨ (Rect.block (s := S8x256x128) S1x256x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x128.size a ≤ S8x256x128.size a
  hwx1_0 : ∀ i : grid1.Coords, EltTy.bits .f32 = 32 ∨ (Rect.block (s := S8x256x128) S1x64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S8x256x128.size a
  hwx1_1 : ∀ i : grid1.Coords, EltTy.bits .f32 = 32 ∨ (Rect.block (s := S8x256x128) S1x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x8.size a ≤ S128x8.size a
  hwx1_3 : ∀ i : grid1.Coords, EltTy.bits .f32 = 32 ∨ (Rect.block (s := S128x8) S128x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x128x8.size a ≤ S8x256x256x8.size a
  hwx1_5 : ∀ i : grid1.Coords, EltTy.bits .f32 = 32 ∨ (Rect.block (s := S8x256x256x8) S1x64x128x8.size (cc1_transform_5 i) (hinb1_5 i)).WholeWords (EltTy.packing .f32)

variable [Facts₀]

def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S8192x128_S128x8_S8192x8_1_0_0_1_n_n : DotDims S8192x128 S128x8 S8192x8 where
  lhsContracting := [1]
  rhsContracting := [0]
  lhsNonContracting := [0]
  rhsNonContracting := [1]
  lhsBatch := []
  rhsBatch := []
  wf := dot_S8192x128_S128x8_S8192x8_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S1x64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x64x128x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x256x256 : Shape := ⟨3, ![8, 256, 256]⟩
abbrev S512x128 : Shape := ⟨2, ![512, 128]⟩
abbrev S128 : Shape := ⟨1, ![128]⟩
abbrev S128x8 : Shape := ⟨2, ![128, 8]⟩
abbrev S8 : Shape := ⟨1, ![8]⟩
abbrev S256x128 : Shape := ⟨2, ![256, 128]⟩
abbrev S8x256x128 : Shape := ⟨3, ![8, 256, 128]⟩
abbrev S8x256x1x128 : Shape := ⟨4, ![8, 256, 1, 128]⟩
abbrev S8x1x256x128 : Shape := ⟨4, ![8, 1, 256, 128]⟩
abbrev S8x256x256x128 : Shape := ⟨4, ![8, 256, 256, 128]⟩
abbrev S1x1x1x128 : Shape := ⟨4, ![1, 1, 1, 128]⟩
abbrev S_ : Shape := ⟨0, ![]⟩
abbrev S8x256x256x8 : Shape := ⟨4, ![8, 256, 256, 8]⟩
abbrev S1x1x1x8 : Shape := ⟨4, ![1, 1, 1, 8]⟩

abbrev nBuf : Space → Nat
  | .hbm => 32
  | .vmem => 0
  | .smem => 0
  | _ => 0

abbrev bufTy : (tb : Table) → Fin (tcTables nBuf tb) → BufTy
  | .hbm, ⟨0, _⟩ => ⟨S8x256x256, .f32⟩
  | .hbm, ⟨1, _⟩ => ⟨S512x128, .f32⟩
  | .hbm, ⟨2, _⟩ => ⟨S128, .f32⟩
  | .hbm, ⟨3, _⟩ => ⟨S128x8, .f32⟩
  | .hbm, ⟨4, _⟩ => ⟨S8, .f32⟩
  | .hbm, ⟨5, _⟩ => ⟨S256x128, .f32⟩
  | .hbm, ⟨6, _⟩ => ⟨S8x256x128, .f32⟩
  | .hbm, ⟨7, _⟩ => ⟨S256x128, .f32⟩
  | .hbm, ⟨8, _⟩ => ⟨S8x256x128, .f32⟩
  | .hbm, ⟨9, _⟩ => ⟨S8x256x1x128, .f32⟩
  | .hbm, ⟨10, _⟩ => ⟨S8x1x256x128, .f32⟩
  | .hbm, ⟨11, _⟩ => ⟨S8x256x256x128, .f32⟩
  | .hbm, ⟨12, _⟩ => ⟨S8x256x256x128, .f32⟩
  | .hbm, ⟨13, _⟩ => ⟨S8x256x256x128, .f32⟩
  | .hbm, ⟨14, _⟩ => ⟨S1x1x1x128, .f32⟩
  | .hbm, ⟨15, _⟩ => ⟨S8x256x256x128, .f32⟩
  | .hbm, ⟨16, _⟩ => ⟨S8x256x256x128, .f32⟩
  | .hbm, ⟨17, _⟩ => ⟨S_, .f32⟩
  | .hbm, ⟨18, _⟩ => ⟨S8x256x256x128, .f32⟩
  | .hbm, ⟨19, _⟩ => ⟨S8x256x256x128, .f32⟩
  | .hbm, ⟨20, _⟩ => ⟨S8x256x256x8, .f32⟩
  | .hbm, ⟨21, _⟩ => ⟨S1x1x1x8, .f32⟩
  | .hbm, ⟨22, _⟩ => ⟨S8x256x256x8, .f32⟩
  | .hbm, ⟨23, _⟩ => ⟨S8x256x256x8, .f32⟩
  | .hbm, ⟨24, _⟩ => ⟨S8x256x256x8, .f32⟩
  | .hbm, ⟨25, _⟩ => ⟨S8x256x256x8, .f32⟩
  | .hbm, ⟨26, _⟩ => ⟨S_, .f32⟩
  | .hbm, ⟨27, _⟩ => ⟨S8x256x256x8, .f32⟩
  | .hbm, ⟨28, _⟩ => ⟨S8x256x256x8, .f32⟩
  | .hbm, ⟨29, _⟩ => ⟨S_, .f32⟩
  | .hbm, ⟨30, _⟩ => ⟨S8x256x256x8, .f32⟩
  | .hbm, ⟨31, _⟩ => ⟨S8x256x256x8, .f32⟩
  | _, _ => ⟨S8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  slices_S512x128_S256x128_0_0 : S512x128.Slices ![0, 0] S256x128
  slices_S512x128_S256x128_256_0 : S512x128.Slices ![256, 0] S256x128
  bcast_S8x256x128_S8x256x1x128_0_1_3 : S8x256x128.BroadcastsInDim S8x256x1x128 (![0, 1, 3] : Fin 3 → Fin S8x256x1x128.rank)
  bcast_S8x256x128_S8x1x256x128_0_2_3 : S8x256x128.BroadcastsInDim S8x1x256x128 (![0, 2, 3] : Fin 3 → Fin S8x1x256x128.rank)
  bcast_S8x256x1x128_S8x256x256x128_0_1_2_3 : S8x256x1x128.BroadcastsInDim S8x256x256x128 (![0, 1, 2, 3] : Fin 4 → Fin S8x256x256x128.rank)
  bcast_S8x1x256x128_S8x256x256x128_0_1_2_3 : S8x1x256x128.BroadcastsInDim S8x256x256x128 (![0, 1, 2, 3] : Fin 4 → Fin S8x256x256x128.rank)
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S_S8x256x256x128 : S_.BroadcastsInDim S8x256x256x128 (![] : Fin 0 → Fin S8x256x256x128.rank)
  bcast_S8_S1x1x1x8_3 : S8.BroadcastsInDim S1x1x1x8 (![3] : Fin 1 → Fin S1x1x1x8.rank)
  bcast_S1x1x1x8_S8x256x256x8_0_1_2_3 : S1x1x1x8.BroadcastsInDim S8x256x256x8 (![0, 1, 2, 3] : Fin 4 → Fin S8x256x256x8.rank)
  bcast_S_S8x256x256x8 : S_.BroadcastsInDim S8x256x256x8 (![] : Fin 0 → Fin S8x256x256x8.rank)
  dot_S8x256x256_S256x128_S8x256x128_2_0_01_1_n_n_wf : DotDims.WF S8x256x256 S256x128 S8x256x128 [2] [0] [0, 1] [1] [] []
  dot_S8x256x256x128_S128x8_S8x256x256x8_3_0_012_1_n_n_wf : DotDims.WF S8x256x256x128 S128x8 S8x256x256x8 [3] [0] [0, 1, 2] [1] [] []

variable [Facts₀]

def dot_S8x256x256_S256x128_S8x256x128_2_0_01_1_n_n : DotDims S8x256x256 S256x128 S8x256x128 where
  lhsContracting := [2]
  rhsContracting := [0]
  lhsNonContracting := [0, 1]
  rhsNonContracting := [1]
  lhsBatch := []
  rhsBatch := []
  wf := dot_S8x256x256_S256x128_S8x256x128_2_0_01_1_n_n_wf
def dot_S8x256x256x128_S128x8_S8x256x256x8_3_0_012_1_n_n : DotDims S8x256x256x128 S128x8 S8x256x256x8 where
  lhsContracting := [3]
  rhsContracting := [0]
  lhsNonContracting := [0, 1, 2]
  rhsNonContracting := [1]
  lhsBatch := []
  rhsBatch := []
  wf := dot_S8x256x256x128_S128x8_S8x256x256x8_3_0_012_1_n_n_wf

class Facts : Prop extends Facts₀ where

variable [Facts]
-- ==== Proof.HostValues.lean ====
/-
  What the first kernel region finds in its operands: the host operations before it slice W1 into its upper and lower
  256 rows and view each bias as a one-row matrix; the slots and W2 are as launched.
-/
import proofs.«175444_j18141941858697_1_alg».proof.Proof.Gen.KernelIdeal.Frame
import Idealize.ShloMosaic.Lib.StableHlo.Run

set_option maxRecDepth 16384

noncomputable section

namespace Cert.RelPred.Host

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The upper 256 rows of W1. -/
theorem V1_v0 (c : Dev nD) : V1 m ρ c main_v0
    = extractStridedSlice S256x128 ![0, 0] (m ((c : Thread nD τ).loc main_arg1)) slices_S512x128_S256x128_0_0 := by
  show StableHlo.after hostOps0 (W0 m ρ c) (Proc.devRef .tc main_v0) = _
  after_results <;> rfl

/-- The lower 256 rows of W1. -/
theorem V1_v1 (c : Dev nD) : V1 m ρ c main_v1
    = extractStridedSlice S256x128 ![256, 0] (m ((c : Thread nD τ).loc main_arg1)) slices_S512x128_S256x128_256_0 := by
  show StableHlo.after hostOps0 (W0 m ρ c) (Proc.devRef .tc main_v1) = _
  after_results <;> rfl

/-- The first bias as a one-row matrix. -/
theorem V1_v2 (c : Dev nD) : V1 m ρ c main_v2
    = shapeCast S1x128 (m ((c : Thread nD τ).loc main_arg2)) shapeCasts_S128_S1x128 := by
  show StableHlo.after hostOps0 (W0 m ρ c) (Proc.devRef .tc main_v2) = _
  after_results <;> rfl

/-- The second bias as a one-row matrix. -/
theorem V1_v3 (c : Dev nD) : V1 m ρ c main_v3
    = shapeCast S1x8 (m ((c : Thread nD τ).loc main_arg4)) shapeCasts_S8_S1x8 := by
  show StableHlo.after hostOps0 (W0 m ρ c) (Proc.devRef .tc main_v3) = _
  after_results <;> rfl

/-- The slots, untouched. -/
theorem V1_arg0 (c : Dev nD) : V1 m ρ c main_arg0
    = m ((c : Thread nD τ).loc main_arg0) := by
  show StableHlo.after hostOps0 (W0 m ρ c) (Proc.devRef .tc main_arg0) = _
  after_results <;> rfl

/-- W2, untouched. -/
theorem V1_arg3 (c : Dev nD) : V1 m ρ c main_arg3
    = m ((c : Thread nD τ).loc main_arg3) := by
  show StableHlo.after hostOps0 (W0 m ρ c) (Proc.devRef .tc main_arg3) = _
  after_results <;> rfl

end Cert.RelPred.Host

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Payload.lean ====
/-
  What each kernel body stores, read at one index over the extended reals.

  The projection body stores the product of its block of slots by a weight block: at (0, n, h) the sum over d of
  slots[0, n, d] · W[d, h] (the narrowing of the operands to bf16 is the identity on the extended reals).
  The pair body stores, at (0, p, q, r), the logistic function of
     Σ_h max (pi[0, p, h] + pj[0, q, h] + b1[0, h]) 0 · W2[h, r] + b2[0, r]:
  the two broadcasts repeat row p along the q axis and row q along the p axis, the (64, 128, 128) sum is flattened to
  (8192, 128) in row-major order (row p·128 + q), multiplied by W2, and unflattened the same way.
-/
import proofs.«175444_j18141941858697_1_alg».proof.Proof.Gen.KernelIdeal.Skeleton
import proofs.«175444_j18141941858697_1_alg».proof.Proof.LibPlainMatmul
import Idealize.ShloMosaic.Lib.Pipeline.Value
import Idealize.ShloMosaic.Lib.ValueLayout

noncomputable section

namespace Cert.RelPred.Pay

open Cert.KernelIdeal Cert.KernelIdeal.Gen Idealize.ShloMosaic Idealize.ShloMosaic.ValueIdx

/-! ## Index bookkeeping: dropping or adding a leading unit coordinate -/

theorem tail2 {a b c : Nat} (z : Fin a) (n : Fin b) (h : Fin c) : (fun d : Fin 2 => ix3 z n h d.succ) = ix2 n h :=
  funext fun d => by match d with | ⟨0, _⟩ => rfl | ⟨1, _⟩ => rfl

theorem tail3 {a b c d : Nat} (z : Fin a) (p : Fin b) (q : Fin c) (r : Fin d) :
    (fun e : Fin 3 => ix4 z p q r e.succ) = ix3 p q r :=
  funext fun e => by match e with | ⟨0, _⟩ => rfl | ⟨1, _⟩ => rfl | ⟨2, _⟩ => rfl

theorem cons3 {b c : Nat} (n : Fin b) (k : Fin c) :
    (Fin.cons ⟨0, Nat.one_pos⟩ (ix2 n k) : (⟨3, ![1, b, c]⟩ : Shape).Idx) = ix3 (0 : Fin 1) n k :=
  funext fun d => by match d with | ⟨0, _⟩ => rfl | ⟨1, _⟩ => rfl | ⟨2, _⟩ => rfl

theorem cons2 {b : Nat} (n : Fin b) :
    (Fin.cons ⟨0, Nat.one_pos⟩ (ix1 n) : (⟨2, ![1, b]⟩ : Shape).Idx) = ix2 (0 : Fin 1) n :=
  funext fun d => by match d with | ⟨0, _⟩ => rfl | ⟨1, _⟩ => rfl

/-! ## The projection body -/

/-- The first product: the slots block by the first weight block. -/
theorem projA_at (v0 : Vec Ideal S1x256x256 .f32) (v3 : Vec Ideal S256x128 .f32) (n : Fin 256) (h : Fin 128) :
    k0_pay2 (F := Ideal) v0 v3 (ix3 (0 : Fin 1) n h) = ∑ k : Fin 256, v0 (ix3 (0 : Fin 1) n k) * v3 (ix2 k h) := by
  unfold k0_pay2 k0_pay1
  refine (shapeCast_addUnit_apply _ _ _ (ix3 (0 : Fin 1) n h)).trans ?_
  rw [tail2]
  refine (Cert.LibPlainMatmul.matmul_plain_apply (M := 256) (K := 256) (N := 128) none _ _ n h).trans ?_
  refine Finset.sum_congr rfl fun k _ => ?_
  rw [shapeCast_self]
  refine congrArg (· * v3 (ix2 k h)) ?_
  refine (shapeCast_dropUnit_apply _ _ _ (ix2 n k)).trans ?_
  rw [cons3]

/-- The second product: the same slots block by the second weight block. -/
theorem projB_at (v0 : Vec Ideal S1x256x256 .f32) (v6 : Vec Ideal S256x128 .f32) (n : Fin 256) (h : Fin 128) :
    k0_pay3 (F := Ideal) v0 v6 (ix3 (0 : Fin 1) n h) = ∑ k : Fin 256, v0 (ix3 (0 : Fin 1) n k) * v6 (ix2 k h) := by
  unfold k0_pay3 k0_pay1
  refine (shapeCast_addUnit_apply _ _ _ (ix3 (0 : Fin 1) n h)).trans ?_
  rw [tail2]
  refine (Cert.LibPlainMatmul.matmul_plain_apply (M := 256) (K := 256) (N := 128) none _ _ n h).trans ?_
  refine Finset.sum_congr rfl fun k _ => ?_
  rw [shapeCast_self]
  refine congrArg (· * v6 (ix2 k h)) ?_
  refine (shapeCast_dropUnit_apply _ _ _ (ix2 n k)).trans ?_
  rw [cons3]

/-! ## The pair body, piece by piece -/

/-- Row p of the first projection block, repeated along the q axis. -/
theorem rowI_at (v0 : Vec Ideal S1x64x128 .f32) (p : Fin 64) (q : Fin 128) (h : Fin 128) :
    broadcastTo S64x128x128 (shapeCast S64x1x128 (shapeCast S64x128 v0 shapeCasts_S1x64x128_S64x128) shapeCasts_S64x128_S64x1x128)
      broadcasts_S64x1x128_S64x128x128 (ix3 p q h) = v0 (ix3 (0 : Fin 1) p h) := by
  refine (broadcastTo_apply _ _ (ix3 p q h) (ix3 p (0 : Fin 1) h) (fun a => by
    match a with
    | ⟨0, _⟩ => show p.val = if (64 : Nat) = 1 then 0 else p.val; rw [if_neg (by decide)]
    | ⟨1, _⟩ => show 0 = if (1 : Nat) = 1 then 0 else q.val; rw [if_pos rfl]
    | ⟨2, _⟩ => show h.val = if (128 : Nat) = 1 then 0 else h.val; rw [if_neg (by decide)])).trans ?_
  refine (shapeCast_apply _ _ (ix3 p (0 : Fin 1) h) (ix2 p h) (by
    rw [Shape.rowMajor_val_two, Shape.rowMajor_val_three]
    show p.val * 128 + h.val = (p.val * 1 + 0) * 128 + h.val; omega)).trans ?_
  refine (shapeCast_dropUnit_apply _ _ _ (ix2 p h)).trans ?_
  rw [cons3]

/-- Row q of the second projection block, repeated along the p axis. -/
theorem rowJ_at (v2 : Vec Ideal S1x128x128 .f32) (p : Fin 64) (q : Fin 128) (h : Fin 128) :
    broadcastTo S64x128x128 (shapeCast S1x128x128 (shapeCast S128x128 v2 shapeCasts_S1x128x128_S128x128) shapeCasts_S128x128_S1x128x128)
      broadcasts_S1x128x128_S64x128x128 (ix3 p q h) = v2 (ix3 (0 : Fin 1) q h) := by
  refine (broadcastTo_apply _ _ (ix3 p q h) (ix3 (0 : Fin 1) q h) (fun a => by
    match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show h.val = if (128 : Nat) = 1 then 0 else h.val; rw [if_neg (by decide)])).trans ?_
  rw [shapeCast_shapeCast]

/-- The first bias, repeated over both slot axes. -/
theorem bias1_at (v4 : Vec Ideal S1x128 .f32) (p : Fin 64) (q : Fin 128) (h : Fin 128) :
    broadcastTo S64x128x128 (shapeCast S1x1x128 (shapeCast S128 v4 shapeCasts_S1x128_S128) shapeCasts_S128_S1x1x128)
      broadcasts_S1x1x128_S64x128x128 (ix3 p q h) = v4 (ix2 (0 : Fin 1) h) := by
  refine (broadcastTo_apply _ _ (ix3 p q h) (ix3 (0 : Fin 1) (0 : Fin 1) h) (fun a => by
    match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show h.val = if (128 : Nat) = 1 then 0 else h.val; rw [if_neg (by decide)])).trans ?_
  refine (shapeCast_apply _ _ (ix3 (0 : Fin 1) (0 : Fin 1) h) (ix1 h) (by
    rw [Shape.rowMajor_val_one, Shape.rowMajor_val_three]
    show h.val = (0 * 1 + 0) * 128 + h.val; omega)).trans ?_
  refine (shapeCast_dropUnit_apply _ _ _ (ix1 h)).trans ?_
  rw [cons2]

/-- The second bias, repeated over both slot axes. -/
theorem bias2_at (v22 : Vec Ideal S1x8 .f32) (p : Fin 64) (q : Fin 128) (r : Fin 8) :
    broadcastTo S64x128x8 (shapeCast S1x1x8 (shapeCast S8 v22 shapeCasts_S1x8_S8) shapeCasts_S8_S1x1x8)
      broadcasts_S1x1x8_S64x128x8 (ix3 p q r) = v22 (ix2 (0 : Fin 1) r) := by
  refine (broadcastTo_apply _ _ (ix3 p q r) (ix3 (0 : Fin 1) (0 : Fin 1) r) (fun a => by
    match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show r.val = if (8 : Nat) = 1 then 0 else r.val; rw [if_neg (by decide)])).trans ?_
  refine (shapeCast_apply _ _ (ix3 (0 : Fin 1) (0 : Fin 1) r) (ix1 r) (by
    rw [Shape.rowMajor_val_one, Shape.rowMajor_val_three]
    show r.val = (0 * 1 + 0) * 8 + r.val; omega)).trans ?_
  refine (shapeCast_dropUnit_apply _ _ _ (ix1 r)).trans ?_
  rw [cons2]

/-- The flattened row of the pair (p, q). -/
abbrev flat (p : Fin 64) (q : Fin 128) : Fin 8192 := ⟨p.val * 128 + q.val, by have := p.isLt; have := q.isLt; omega⟩

/-- Flattening (64, 128, 128) to (8192, 128) puts the pair (p, q) in row p·128 + q. -/
theorem flatten_at (x : FVec Ideal S64x128x128 .f32) (p : Fin 64) (q : Fin 128) (h : Fin 128) :
    shapeCast S8192x128 x shapeCasts_S64x128x128_S8192x128 (ix2 (flat p q) h) = x (ix3 p q h) :=
  shapeCast_apply _ _ (ix2 (flat p q) h) (ix3 p q h) (by
    rw [Shape.rowMajor_val_three, Shape.rowMajor_val_two]
    show (p.val * 128 + q.val) * 128 + h.val = (p.val * 128 + q.val) * 128 + h.val; rfl)

/-- Unflattening (8192, 8) to (64, 128, 8) reads row p·128 + q at the pair (p, q). -/
theorem unflatten_at (x : FVec Ideal S8192x8 .f32) (p : Fin 64) (q : Fin 128) (r : Fin 8) :
    shapeCast S64x128x8 x shapeCasts_S8192x8_S64x128x8 (ix3 p q r) = x (ix2 (flat p q) r) :=
  shapeCast_apply _ _ (ix3 p q r) (ix2 (flat p q) r) (by
    rw [Shape.rowMajor_val_three, Shape.rowMajor_val_two]
    show (p.val * 128 + q.val) * 8 + r.val = (p.val * 128 + q.val) * 8 + r.val; rfl)

/-- The pair body's stored value at (0, p, q, r). -/
theorem pair_at (v0 : Vec Ideal S1x64x128 .f32) (v2 : Vec Ideal S1x128x128 .f32) (v4 : Vec Ideal S1x128 .f32)
    (v18 : Vec Ideal S128x8 .f32) (v22 : Vec Ideal S1x8 .f32) (p : Fin 64) (q : Fin 128) (r : Fin 8) :
    k1_pay1 (F := Ideal) v0 v2 v4 v18 v22 (ix4 (0 : Fin 1) p q r)
      = Ideal.logistic ((∑ h : Fin 128,
            max (v0 (ix3 (0 : Fin 1) p h) + v2 (ix3 (0 : Fin 1) q h) + v4 (ix2 (0 : Fin 1) h)) (Ideal.ofBits .f32 0x00000000#32)
              * v18 (ix2 h r)) + v22 (ix2 (0 : Fin 1) r)) := by
  unfold k1_pay1
  refine (shapeCast_addUnit_apply _ _ _ (ix4 (0 : Fin 1) p q r)).trans ?_
  rw [tail3]
  refine congrArg Ideal.logistic ?_
  refine congrArg₂ (· + ·) ?_ (bias2_at v22 p q r)
  refine (unflatten_at _ p q r).trans ?_
  refine (Cert.LibPlainMatmul.matmul_plain_apply (M := 8192) (K := 128) (N := 8) none _ _ (flat p q) r).trans ?_
  refine Finset.sum_congr rfl fun h _ => ?_
  refine congrArg (· * v18 (ix2 h r)) ?_
  refine (truncf_apply (ψ := .bf16) _ bitsLt_bf16_f32 _).trans ?_
  refine (flatten_at _ p q h).trans ?_
  refine congrArg₂ max ?_ rfl
  refine congrArg₂ (· + ·) (congrArg₂ (· + ·) (rowI_at v0 p q h) (rowJ_at v2 p q h)) (bias1_at v4 p q h)

end Cert.RelPred.Pay

end
-- ==== Proof.Spec.lean ====
/-
  The relation predictor as ONE function of its arguments, on the extended reals.

  For a batch `b`, slots `i` and `j` and a relation `r`:
    proj_a[b, n, h]   = Σ_d slots[b, n, d] · Wa[d, h]            (Wa, Wb the upper and lower 256 rows of W1)
    hidden[b, i, j, h] = max (proj_a[b, i, h] + proj_b[b, j, h] + b1[h]) 0
    out[b, i, j, r]   = logistic (Σ_h hidden[b, i, j, h] · W2[h, r] + b2[r]).
  Both programs compute exactly this tree of sums; nothing here needs the inputs finite.
-/
import Idealize.ShloMosaic.PureOps.Ideal
import Idealize.ShloMosaic.PureOps.Ideal.Laws
import Idealize.ShloMosaic.Lib.ValueIdx

noncomputable section

namespace Cert.RelPred

open Idealize.ShloMosaic Idealize.ShloMosaic.ValueIdx

/-- The projection of slot `n` of batch `b` on hidden unit `h` by a 256 × 128 weight block. -/
def projAt (x : (⟨3, ![8, 256, 256]⟩ : Shape).Idx → EReal) (w : (⟨2, ![256, 128]⟩ : Shape).Idx → EReal)
    (b : Fin 8) (n : Fin 256) (h : Fin 128) : EReal :=
  ∑ k : Fin 256, x (ix3 b n k) * w (ix2 k h)

/-- The projections of every slot, as an array [8, 256, 128]. -/
def projArr (x : (⟨3, ![8, 256, 256]⟩ : Shape).Idx → EReal) (w : (⟨2, ![256, 128]⟩ : Shape).Idx → EReal) :
    (⟨3, ![8, 256, 128]⟩ : Shape).Idx → EReal :=
  fun i => projAt x w (i 0) (i 1) (i 2)

/-- The hidden activation of the ordered pair (i, j): the two projections and the bias added, clamped below at the
    zero word's value. -/
def hiddenAt (pa pb : (⟨3, ![8, 256, 128]⟩ : Shape).Idx → EReal) (b1 : Fin 128 → EReal)
    (b : Fin 8) (i j : Fin 256) (h : Fin 128) : EReal :=
  max (pa (ix3 b i h) + pb (ix3 b j h) + b1 h) (Ideal.ofBits .f32 0x00000000#32)

/-- The relation score of the pair (i, j) for relation `r`. -/
def pairAt (pa pb : (⟨3, ![8, 256, 128]⟩ : Shape).Idx → EReal) (b1 : Fin 128 → EReal)
    (w2 : (⟨2, ![128, 8]⟩ : Shape).Idx → EReal) (b2 : Fin 8 → EReal)
    (b : Fin 8) (i j : Fin 256) (r : Fin 8) : EReal :=
  Ideal.logistic ((∑ h : Fin 128, hiddenAt pa pb b1 b i j h * w2 (ix2 h r)) + b2 r)

/-- The scores of every pair, as an array [8, 256, 256, 8], from the two projection arrays. -/
def pairArr (pa pb : (⟨3, ![8, 256, 128]⟩ : Shape).Idx → EReal) (b1 : Fin 128 → EReal)
    (w2 : (⟨2, ![128, 8]⟩ : Shape).Idx → EReal) (b2 : Fin 8 → EReal) :
    (⟨4, ![8, 256, 256, 8]⟩ : Shape).Idx → EReal :=
  fun i => pairAt pa pb b1 w2 b2 (i 0) (i 1) (i 2) (i 3)

/-- The whole computation from the slots, the two weight blocks, and the second layer. -/
def outArr (x : (⟨3, ![8, 256, 256]⟩ : Shape).Idx → EReal) (wa wb : (⟨2, ![256, 128]⟩ : Shape).Idx → EReal)
    (b1 : Fin 128 → EReal) (w2 : (⟨2, ![128, 8]⟩ : Shape).Idx → EReal) (b2 : Fin 8 → EReal) :
    (⟨4, ![8, 256, 256, 8]⟩ : Shape).Idx → EReal :=
  pairArr (projArr x wa) (projArr x wb) b1 w2 b2

/-- The expansion of the logistic function the reference spells out, `1 / (1 + e^(-x))` with the word of one, is the
    logistic function. -/
theorem logistic_spelled (x : EReal) :
    Ideal.div (Ideal.ofBits .f32 0x3F800000#32) (Ideal.ofBits .f32 0x3F800000#32 + Ideal.exp (-x)) = Ideal.logistic x := by
  have h1 : Ideal.ofBits .f32 0x3F800000#32 = 1 := IdealRules.sign_bit.ideal_onePat .f32
  rw [h1]; rfl

end Cert.RelPred

end
-- ==== Proof.RegionProj.lean ====
/-
  The projection region: from blocks to arrays.

  Grid point b stages slots[b] (one block of the slots array) and the whole of each weight block, and writes back row
  block b of each projection array. What it writes back is block b of the array
      (b, n, h) ↦ Σ_d slots[b, n, d] · W[d, h];
  the eight blocks cover the array, so each projection array ends holding exactly that.
-/
import proofs.«175444_j18141941858697_1_alg».proof.Proof.Gen.KernelIdeal.Frame
import proofs.«175444_j18141941858697_1_alg».proof.Proof.Payload
import proofs.«175444_j18141941858697_1_alg».proof.Proof.Spec

set_option maxRecDepth 16384

noncomputable section

namespace Cert.RelPred.Proj

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the slots block and both output blocks move with the point along the batch axis;
    the weight blocks stay. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-! ## The first projection array -/

/-- What point t writes back to the first projection array is its block of the projection by the first weight block. -/
theorem flushedA_eq (c : Dev nD) (t : Fin cfg0.N) :
    (dat0 V c).flushed 3 t = ((cfg0.win 3).blk t).view.read (Elt Ideal) (projArr (V c main_arg0) (V c main_v0)) := by
  show (cfg0.win 3).cut (grid0.coords t) ((dat0 V c).after 3 t) = _
  rw [after0_3]
  unfold out0_3
  rw [View.canon_unit_zero hz3]
  simp only [View.ld_unit_zero (S := S1x256x256) hz3, View.ld_unit_zero (S := S256x128) hz2]
  funext j
  obtain ⟨z, n, h, rfl⟩ : ∃ (z : Fin 1) (n : Fin 256) (h : Fin 128), j = ix3 z n h := ⟨j 0, j 1, j 2, eq_ix3 j⟩
  obtain rfl : z = 0 := Subsingleton.elim _ _
  obtain ⟨e00, e01, e02, e10, e11, -, -, e30, e31, e32, -⟩ := idx_facts0 t
  show k0_pay2 (F := Ideal) (iblk0 V c 0 t) (iblk0 V c 1 t) (ix3 (0 : Fin 1) n h)
    = projArr (V c main_arg0) (V c main_v0) (((cfg0.win 3).blk t).view.emb (ix3 (0 : Fin 1) n h))
  refine (Pay.projA_at _ _ n h).trans ?_
  unfold projArr projAt
  refine Finset.sum_congr rfl fun k _ => ?_
  refine congrArg₂ (· * ·) ?_ ?_
  · show V c main_arg0 (((cfg0.win 0).blk t).view.emb (ix3 (0 : Fin 1) n k)) = _
    refine congrArg (V c main_arg0) ?_
    funext a; apply Fin.ext
    match a with
    | ⟨0, _⟩ => show win0_0.index t (0 : Fin 3) * 1 + 1 * 0 = win0_3.index t (0 : Fin 3) * 1 + 1 * 0; omega
    | ⟨1, _⟩ => show win0_0.index t (1 : Fin 3) * 256 + 1 * n.val = win0_3.index t (1 : Fin 3) * 256 + 1 * n.val; omega
    | ⟨2, _⟩ => show win0_0.index t (2 : Fin 3) * 256 + 1 * k.val = k.val; omega
  · show V c main_v0 (((cfg0.win 1).blk t).view.emb (ix2 k h)) = _
    refine congrArg (V c main_v0) ?_
    funext a; apply Fin.ext
    match a with
    | ⟨0, _⟩ => show win0_1.index t (0 : Fin 2) * 256 + 1 * k.val = k.val; omega
    | ⟨1, _⟩ => show win0_1.index t (1 : Fin 2) * 128 + 1 * h.val = win0_3.index t (2 : Fin 3) * 128 + 1 * h.val; omega

/-- An index of the first projection array is in point t's block iff each coordinate is in the block's range. -/
theorem mem_blkA (t : Fin cfg0.N) (i : S8x256x128.Idx) :
    i ∈ ((cfg0.win 3).blk t).view.set ↔ ∀ a : Fin 3, win0_3.index t a * S1x256x128.size a ≤ (i a).val
      ∧ (i a).val < win0_3.index t a * S1x256x128.size a + S1x256x128.size a := by
  show i ∈ ((View.whole main_v4_0).slice (win0_3.rect t)).set ↔ _
  rw [View.set_slice_whole, Rect.mem_set_unit]
  exact Iff.rfl

/-- Every index lies in the block of the point of its batch coordinate. -/
theorem coverA (i : S8x256x128.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 128 := (i 2).isLt
  obtain ⟨-, -, -, -, -, -, -, e30, e31, e32, -⟩ := idx_facts0 ⟨(i 0).val, hi0⟩
  have e30' : win0_3.index ⟨(i 0).val, hi0⟩ (0 : Fin 3) = (i 0).val := e30
  refine ⟨⟨(i 0).val, hi0⟩, flush0_3 _, ?_⟩
  rw [mem_blkA]
  intro a
  match a with
  | ⟨0, _⟩ => show win0_3.index ⟨(i 0).val, hi0⟩ (0 : Fin 3) * 1 ≤ (i 0).val ∧ (i 0).val < win0_3.index ⟨(i 0).val, hi0⟩ (0 : Fin 3) * 1 + 1; omega
  | ⟨1, _⟩ => show win0_3.index ⟨(i 0).val, hi0⟩ (1 : Fin 3) * 256 ≤ (i 1).val ∧ (i 1).val < win0_3.index ⟨(i 0).val, hi0⟩ (1 : Fin 3) * 256 + 256; omega
  | ⟨2, _⟩ => show win0_3.index ⟨(i 0).val, hi0⟩ (2 : Fin 3) * 128 ≤ (i 2).val ∧ (i 2).val < win0_3.index ⟨(i 0).val, hi0⟩ (2 : Fin 3) * 128 + 128; omega

/-- The first projection array after the region. -/
theorem finalA (c : Dev nD) : (dat0 V c).arrAt 3 cfg0.N = projArr (V c main_arg0) (V c main_v0) :=
  (dat0 V c).arrAt_eq_of_cover 3 _ (fun t _ => flushedA_eq V c t) coverA

/-! ## The second projection array -/

/-- What point t writes back to the second projection array is its block of the projection by the second weight block. -/
theorem flushedB_eq (c : Dev nD) (t : Fin cfg0.N) :
    (dat0 V c).flushed 4 t = ((cfg0.win 4).blk t).view.read (Elt Ideal) (projArr (V c main_arg0) (V c main_v1)) := by
  show (cfg0.win 4).cut (grid0.coords t) ((dat0 V c).after 4 t) = _
  rw [after0_4]
  unfold out0_4
  rw [View.canon_unit_zero hz3]
  simp only [View.ld_unit_zero (S := S1x256x256) hz3, View.ld_unit_zero (S := S256x128) hz2]
  funext j
  obtain ⟨z, n, h, rfl⟩ : ∃ (z : Fin 1) (n : Fin 256) (h : Fin 128), j = ix3 z n h := ⟨j 0, j 1, j 2, eq_ix3 j⟩
  obtain rfl : z = 0 := Subsingleton.elim _ _
  obtain ⟨e00, e01, e02, -, -, e20, e21, -, -, -, e40, e41, e42⟩ := idx_facts0 t
  show k0_pay3 (F := Ideal) (iblk0 V c 0 t) (iblk0 V c 2 t) (ix3 (0 : Fin 1) n h)
    = projArr (V c main_arg0) (V c main_v1) (((cfg0.win 4).blk t).view.emb (ix3 (0 : Fin 1) n h))
  refine (Pay.projB_at _ _ n h).trans ?_
  unfold projArr projAt
  refine Finset.sum_congr rfl fun k _ => ?_
  refine congrArg₂ (· * ·) ?_ ?_
  · show V c main_arg0 (((cfg0.win 0).blk t).view.emb (ix3 (0 : Fin 1) n k)) = _
    refine congrArg (V c main_arg0) ?_
    funext a; apply Fin.ext
    match a with
    | ⟨0, _⟩ => show win0_0.index t (0 : Fin 3) * 1 + 1 * 0 = win0_4.index t (0 : Fin 3) * 1 + 1 * 0; omega
    | ⟨1, _⟩ => show win0_0.index t (1 : Fin 3) * 256 + 1 * n.val = win0_4.index t (1 : Fin 3) * 256 + 1 * n.val; omega
    | ⟨2, _⟩ => show win0_0.index t (2 : Fin 3) * 256 + 1 * k.val = k.val; omega
  · show V c main_v1 (((cfg0.win 2).blk t).view.emb (ix2 k h)) = _
    refine congrArg (V c main_v1) ?_
    funext a; apply Fin.ext
    match a with
    | ⟨0, _⟩ => show win0_2.index t (0 : Fin 2) * 256 + 1 * k.val = k.val; omega
    | ⟨1, _⟩ => show win0_2.index t (1 : Fin 2) * 128 + 1 * h.val = win0_4.index t (2 : Fin 3) * 128 + 1 * h.val; omega

/-- An index of the second projection array is in point t's block iff each coordinate is in the block's range. -/
theorem mem_blkB (t : Fin cfg0.N) (i : S8x256x128.Idx) :
    i ∈ ((cfg0.win 4).blk t).view.set ↔ ∀ a : Fin 3, win0_4.index t a * S1x256x128.size a ≤ (i a).val
      ∧ (i a).val < win0_4.index t a * S1x256x128.size a + S1x256x128.size a := by
  show i ∈ ((View.whole main_v4_1).slice (win0_4.rect t)).set ↔ _
  rw [View.set_slice_whole, Rect.mem_set_unit]
  exact Iff.rfl

/-- Every index lies in the block of the point of its batch coordinate. -/
theorem coverB (i : S8x256x128.Idx) :
    ∃ t : Fin cfg0.N, (cfg0.win 4).flush t = true ∧ i ∈ ((cfg0.win 4).blk t).view.set := by
  have hi0 : (i 0).val < 8 := (i 0).isLt
  have hi1 : (i 1).val < 256 := (i 1).isLt
  have hi2 : (i 2).val < 128 := (i 2).isLt
  obtain ⟨-, -, -, -, -, -, -, -, -, -, e40, e41, e42⟩ := idx_facts0 ⟨(i 0).val, hi0⟩
  have e40' : win0_4.index ⟨(i 0).val, hi0⟩ (0 : Fin 3) = (i 0).val := e40
  refine ⟨⟨(i 0).val, hi0⟩, flush0_4 _, ?_⟩
  rw [mem_blkB]
  intro a
  match a with
  | ⟨0, _⟩ => show win0_4.index ⟨(i 0).val, hi0⟩ (0 : Fin 3) * 1 ≤ (i 0).val ∧ (i 0).val < win0_4.index ⟨(i 0).val, hi0⟩ (0 : Fin 3) * 1 + 1; omega
  | ⟨1, _⟩ => show win0_4.index ⟨(i 0).val, hi0⟩ (1 : Fin 3) * 256 ≤ (i 1).val ∧ (i 1).val < win0_4.index ⟨(i 0).val, hi0⟩ (1 : Fin 3) * 256 + 256; omega
  | ⟨2, _⟩ => show win0_4.index ⟨(i 0).val, hi0⟩ (2 : Fin 3) * 128 ≤ (i 2).val ∧ (i 2).val < win0_4.index ⟨(i 0).val, hi0⟩ (2 : Fin 3) * 128 + 128; omega

/-- The second projection array after the region. -/
theorem finalB (c : Dev nD) : (dat0 V c).arrAt 4 cfg0.N = projArr (V c main_arg0) (V c main_v1) :=
  (dat0 V c).arrAt_eq_of_cover 4 _ (fun t _ => flushedB_eq V c t) coverB

end Cert.RelPred.Proj

end
-- ==== Proof.RegionPair.lean ====
/-
  The pair region: from blocks to the result array.

  Grid point (b, i, j) stages rows 64·i … 64·i + 63 of the first projection of batch b, rows 128·j … 128·j + 127 of the
  second, the bias rows and the second weight matrix whole, and writes back the block (b, 64·i …, 128·j …, all r) of the
  result. What it writes back is its block of the array
      (b, p, q, r) ↦ logistic (Σ_h max (pa[b, p, h] + pb[b, q, h] + b1[0, h]) 0 · W2[h, r] + b2[0, r]);
  the 64 blocks cover the array, so the result array ends holding exactly that.
-/
import proofs.«175444_j18141941858697_1_alg».proof.Proof.Gen.KernelIdeal.Frame
import proofs.«175444_j18141941858697_1_alg».proof.Proof.Payload
import proofs.«175444_j18141941858697_1_alg».proof.Proof.Spec

set_option maxRecDepth 16384

noncomputable section

namespace Cert.RelPred.Pair

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the grid: the first projection's block moves with the output block on the batch and first
    slot axes, the second's on the batch and second slot axes; the biases and the weights stay. -/
theorem idx_facts1 : ∀ t : Fin cfg1.N,
    win1_0.index t (0 : Fin 3) = win1_5.index t (0 : Fin 4) ∧ win1_0.index t (1 : Fin 3) = win1_5.index t (1 : Fin 4)
    ∧ win1_0.index t (2 : Fin 3) = 0
    ∧ win1_1.index t (0 : Fin 3) = win1_5.index t (0 : Fin 4) ∧ win1_1.index t (1 : Fin 3) = win1_5.index t (2 : Fin 4)
    ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (3 : Fin 4) = 0 :=
  (by decide +kernel : ∀ t : Fin grid1.N, _)

/-- Every block of the result is some point's. -/
theorem idx_onto1 : ∀ (q0 : Fin 8) (q1 : Fin 4) (q2 : Fin 2), ∃ t : Fin cfg1.N, win1_5.index t = ![q0.val, q1.val, q2.val, 0] :=
  (by decide +kernel : ∀ (q0 : Fin 8) (q1 : Fin 4) (q2 : Fin 2), ∃ t : Fin grid1.N, win1_5.index t = ![q0.val, q1.val, q2.val, 0])

/-- What point t writes back is its block of the pair scores of the two projection arrays as the region finds them. -/
theorem flushed_eq (c : Dev nD) (t : Fin cfg1.N) :
    (dat1 V c).flushed 5 t = ((cfg1.win 5).blk t).view.read (Elt Ideal)
      (pairArr (V c main_v4_0) (V c main_v4_1) (fun h => V c main_v2 (ix2 (0 : Fin 1) h)) (V c main_arg3)
        (fun r => V c main_v3 (ix2 (0 : Fin 1) r))) := by
  show (cfg1.win 5).cut (grid1.coords t) ((dat1 V c).after 5 t) = _
  rw [after1_5]
  unfold out1_5
  rw [View.canon_unit_zero hz4]
  simp only [View.ld_unit_zero (S := S1x64x128) hz3, View.ld_unit_zero (S := S1x128x128) hz3,
    View.ld_unit_zero (S := S1x128) hz2, View.ld_unit_zero (S := S128x8) hz2, View.ld_unit_zero (S := S1x8) hz2]
  funext j
  obtain ⟨z, p, q, r, rfl⟩ : ∃ (z : Fin 1) (p : Fin 64) (q : Fin 128) (r : Fin 8), j = ix4 z p q r :=
    ⟨j 0, j 1, j 2, j 3, eq_ix4 j⟩
  obtain rfl : z = 0 := Subsingleton.elim _ _
  obtain ⟨e00, e01, e02, e10, e11, e12, e20, e21, e30, e31, e40, e41, e53⟩ := idx_facts1 t
  show k1_pay1 (F := Ideal) (iblk1 V c 0 t) (iblk1 V c 1 t) (iblk1 V c 2 t) (iblk1 V c 3 t) (iblk1 V c 4 t) (ix4 (0 : Fin 1) p q r)
    = pairArr (V c main_v4_0) (V c main_v4_1) (fun h => V c main_v2 (ix2 (0 : Fin 1) h)) (V c main_arg3)
        (fun r => V c main_v3 (ix2 (0 : Fin 1) r)) (((cfg1.win 5).blk t).view.emb (ix4 (0 : Fin 1) p q r))
  refine (Pay.pair_at _ _ _ _ _ p q r).trans ?_
  unfold pairArr pairAt hiddenAt
  refine congrArg Ideal.logistic ?_
  refine congrArg₂ (· + ·) (Finset.sum_congr rfl fun h _ => ?_) ?_
  · refine congrArg₂ (· * ·) (congrArg₂ max (congrArg₂ (· + ·) (congrArg₂ (· + ·) ?_ ?_) ?_) rfl) ?_
    · show V c main_v4_0 (((cfg1.win 0).blk t).view.emb (ix3 (0 : Fin 1) p h)) = _
      refine congrArg (V c main_v4_0) ?_
      funext a; apply Fin.ext
      match a with
      | ⟨0, _⟩ => show win1_0.index t (0 : Fin 3) * 1 + 1 * 0 = win1_5.index t (0 : Fin 4) * 1 + 1 * 0; omega
      | ⟨1, _⟩ => show win1_0.index t (1 : Fin 3) * 64 + 1 * p.val = win1_5.index t (1 : Fin 4) * 64 + 1 * p.val; omega
      | ⟨2, _⟩ => show win1_0.index t (2 : Fin 3) * 128 + 1 * h.val = h.val; omega
    · show V c main_v4_1 (((cfg1.win 1).blk t).view.emb (ix3 (0 : Fin 1) q h)) = _
      refine congrArg (V c main_v4_1) ?_
      funext a; apply Fin.ext
      match a with
      | ⟨0, _⟩ => show win1_1.index t (0 : Fin 3) * 1 + 1 * 0 = win1_5.index t (0 : Fin 4) * 1 + 1 * 0; omega
      | ⟨1, _⟩ => show win1_1.index t (1 : Fin 3) * 128 + 1 * q.val = win1_5.index t (2 : Fin 4) * 128 + 1 * q.val; omega
      | ⟨2, _⟩ => show win1_1.index t (2 : Fin 3) * 128 + 1 * h.val = h.val; omega
    · show V c main_v2 (((cfg1.win 2).blk t).view.emb (ix2 (0 : Fin 1) h)) = V c main_v2 (ix2 (0 : Fin 1) h)
      refine congrArg (V c main_v2) ?_
      funext a; apply Fin.ext
      match a with
      | ⟨0, _⟩ => show win1_2.index t (0 : Fin 2) * 1 + 1 * 0 = 0; omega
      | ⟨1, _⟩ => show win1_2.index t (1 : Fin 2) * 128 + 1 * h.val = h.val; omega
    · show V c main_arg3 (((cfg1.win 3).blk t).view.emb (ix2 h r)) = _
      refine congrArg (V c main_arg3) ?_
      funext a; apply Fin.ext
      match a with
      | ⟨0, _⟩ => show win1_3.index t (0 : Fin 2) * 128 + 1 * h.val = h.val; omega
      | ⟨1, _⟩ => show win1_3.index t (1 : Fin 2) * 8 + 1 * r.val = win1_5.index t (3 : Fin 4) * 8 + 1 * r.val; omega
  · show V c main_v3 (((cfg1.win 4).blk t).view.emb (ix2 (0 : Fin 1) r)) = V c main_v3 (ix2 (0 : Fin 1) _)
    refine congrArg (V c main_v3) ?_
    funext a; apply Fin.ext
    match a with
    | ⟨0, _⟩ => show win1_4.index t (0 : Fin 2) * 1 + 1 * 0 = 0; omega
    | ⟨1, _⟩ => show win1_4.index t (1 : Fin 2) * 8 + 1 * r.val = win1_5.index t (3 : Fin 4) * 8 + 1 * r.val; omega

/-- An index of the result array is in point t's block iff each coordinate is in the block's range. -/
theorem mem_blk (t : Fin cfg1.N) (i : S8x256x256x8.Idx) :
    i ∈ ((cfg1.win 5).blk t).view.set ↔ ∀ a : Fin 4, win1_5.index t a * S1x64x128x8.size a ≤ (i a).val
      ∧ (i a).val < win1_5.index t a * S1x64x128x8.size a + S1x64x128x8.size a := by
  show i ∈ ((View.whole main_v5).slice (win1_5.rect t)).set ↔ _
  rw [View.set_slice_whole, Rect.mem_set_unit]
  exact Iff.rfl

/-- Every index lies in the block (batch, first slot / 64, second slot / 128). -/
theorem cover (i : S8x256x256x8.Idx) :
    ∃ t : Fin cfg1.N, (cfg1.win 5).flush t = true ∧ i ∈ ((cfg1.win 5).blk t).view.set := by
  have hi0 : (i 0).val < 8 := (i 0).isLt
  have hi1 : (i 1).val < 256 := (i 1).isLt
  have hi2 : (i 2).val < 256 := (i 2).isLt
  have hi3 : (i 3).val < 8 := (i 3).isLt
  obtain ⟨t, ht⟩ := idx_onto1 ⟨(i 0).val, hi0⟩ ⟨(i 1).val / 64, by omega⟩ ⟨(i 2).val / 128, by omega⟩
  have q0 : win1_5.index t (0 : Fin 4) = (i 0).val := congrFun ht 0
  have q1 : win1_5.index t (1 : Fin 4) = (i 1).val / 64 := congrFun ht 1
  have q2 : win1_5.index t (2 : Fin 4) = (i 2).val / 128 := congrFun ht 2
  have q3 : win1_5.index t (3 : Fin 4) = 0 := congrFun ht 3
  refine ⟨t, flush1_5 t, ?_⟩
  rw [mem_blk]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 64 ≤ (i 1).val ∧ (i 1).val < win1_5.index t (1 : Fin 4) * 64 + 64; omega
  | ⟨2, _⟩ => show win1_5.index t (2 : Fin 4) * 128 ≤ (i 2).val ∧ (i 2).val < win1_5.index t (2 : Fin 4) * 128 + 128; omega
  | ⟨3, _⟩ => show win1_5.index t (3 : Fin 4) * 8 ≤ (i 3).val ∧ (i 3).val < win1_5.index t (3 : Fin 4) * 8 + 8; omega

/-- The result array after the region: the pair scores of the two projection arrays, the bias rows and the second
    weight matrix as the region finds them. -/
theorem final (c : Dev nD) : (dat1 V c).arrAt 5 cfg1.N
    = pairArr (V c main_v4_0) (V c main_v4_1) (fun h => V c main_v2 (ix2 (0 : Fin 1) h)) (V c main_arg3)
        (fun r => V c main_v3 (ix2 (0 : Fin 1) r)) :=
  (dat1 V c).arrAt_eq_of_cover 5 _ (fun t _ => flushed_eq V c t) cover

end Cert.RelPred.Pair

end
-- ==== Proof.KernelValue.lean ====
/-
  The kernel program's result as one function of its arguments.

  After the last region the result array holds the pair scores of the two projection arrays the first region left, and
  those hold the projections of the slots by the two halves of W1; the one-row bias matrices read at (0, h) are the
  biases at h. So the result is the specification of the arguments.
-/
import proofs.«175444_j18141941858697_1_alg».proof.Proof.KernelRun
import proofs.«175444_j18141941858697_1_alg».proof.Proof.HostValues
import proofs.«175444_j18141941858697_1_alg».proof.Proof.RegionProj
import proofs.«175444_j18141941858697_1_alg».proof.Proof.RegionPair
import Idealize.ShloMosaic.Lib.ValueLayout

set_option maxRecDepth 16384

noncomputable section

namespace Cert.RelPred.Kernel

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The first projection array as the pair region finds it. -/
theorem projA_entry (c : Dev nD) : V2 m ρ c main_v4_0
    = projArr (m ((c : Thread nD τ).loc main_arg0))
        (extractStridedSlice S256x128 ![0, 0] (m ((c : Thread nD τ).loc main_arg1)) slices_S512x128_S256x128_0_0) := by
  refine (W2_arr m ρ c 3).trans ?_
  rw [Proj.finalA (V1 m ρ) c, Host.V1_arg0, Host.V1_v0]

/-- The second projection array as the pair region finds it. -/
theorem projB_entry (c : Dev nD) : V2 m ρ c main_v4_1
    = projArr (m ((c : Thread nD τ).loc main_arg0))
        (extractStridedSlice S256x128 ![256, 0] (m ((c : Thread nD τ).loc main_arg1)) slices_S512x128_S256x128_256_0) := by
  refine (W2_arr m ρ c 4).trans ?_
  rw [Proj.finalB (V1 m ρ) c, Host.V1_arg0, Host.V1_v1]

/-- The projection region leaves the bias rows and W2 alone. -/
theorem bias1_entry (c : Dev nD) : V2 m ρ c main_v2
    = shapeCast S1x128 (m ((c : Thread nD τ).loc main_arg2)) shapeCasts_S128_S1x128 :=
  (W2_of_ne m ρ c main_v2 (by decide)).trans (Host.V1_v2 m ρ c)

theorem bias2_entry (c : Dev nD) : V2 m ρ c main_v3
    = shapeCast S1x8 (m ((c : Thread nD τ).loc main_arg4)) shapeCasts_S8_S1x8 :=
  (W2_of_ne m ρ c main_v3 (by decide)).trans (Host.V1_v3 m ρ c)

theorem w2_entry (c : Dev nD) : V2 m ρ c main_arg3 = m ((c : Thread nD τ).loc main_arg3) :=
  (W2_of_ne m ρ c main_arg3 (by decide)).trans (Host.V1_arg3 m ρ c)

/-- The result buffer at the end of the run is the specification of the arguments. -/
theorem result_eq (c : Dev nD) : W3 m ρ c (Proc.devRef .tc main_v5)
    = outArr (m ((c : Thread nD τ).loc main_arg0))
        (extractStridedSlice S256x128 ![0, 0] (m ((c : Thread nD τ).loc main_arg1)) slices_S512x128_S256x128_0_0)
        (extractStridedSlice S256x128 ![256, 0] (m ((c : Thread nD τ).loc main_arg1)) slices_S512x128_S256x128_256_0)
        (fun h => m ((c : Thread nD τ).loc main_arg2) (ix1 h)) (m ((c : Thread nD τ).loc main_arg3))
        (fun r => m ((c : Thread nD τ).loc main_arg4) (ix1 r)) := by
  refine (W3_arr m ρ c 5).trans ?_
  rw [Pair.final (V2 m ρ) c, projA_entry, projB_entry, bias1_entry, bias2_entry, w2_entry]
  unfold outArr
  congr 1
  · funext h; exact shapeCast_a_1a_apply _ _ (0 : Fin 1) h
  · funext r; exact shapeCast_a_1a_apply _ _ (0 : Fin 1) r

/-- Every weakly fair execution of the kernel program ends with the result at the specification and the arguments
    unchanged. -/
theorem run : θ_run defs (onTc (τ := τ) (main (F := Ideal))) ⟨m, fun _ => 0, ρ⟩ (fun r => ∀ c : Dev nD,
      r.2.mem ((c.tc : Thread nD τ).loc main_v5)
        = outArr (m ((c : Thread nD τ).loc main_arg0))
            (extractStridedSlice S256x128 ![0, 0] (m ((c : Thread nD τ).loc main_arg1)) slices_S512x128_S256x128_0_0)
            (extractStridedSlice S256x128 ![256, 0] (m ((c : Thread nD τ).loc main_arg1)) slices_S512x128_S256x128_256_0)
            (fun h => m ((c : Thread nD τ).loc main_arg2) (ix1 h)) (m ((c : Thread nD τ).loc main_arg3))
            (fun r => m ((c : Thread nD τ).loc main_arg4) (ix1 r))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (Cert.KernelIdeal.ValueRun.run_out m ρ)

end Cert.RelPred.Kernel

end
-- ==== Proof.RefSpec.lean ====
/-
  The reference computes the specification: read one operation at a time, its result at the index (b, i, j, r) is the
  logistic function of Σ_h max (Σ_d slots[b,i,d]·W1[d,h] + Σ_d slots[b,j,d]·W1[256+d,h] + b1[h]) 0 · W2[h,r] + b2[r] —
  the broadcasts only repeat a value along the axes it does not depend on, and the quotient 1 / (1 + e^(-x)) is the
  logistic function.
-/
import proofs.«175444_j18141941858697_1_alg».proof.Proof.Gen.ReferenceIdeal.Read
import proofs.«175444_j18141941858697_1_alg».proof.Proof.Spec

noncomputable section

namespace Cert.RelPred.Ref

open Cert.ReferenceIdeal Cert.ReferenceIdeal.Read Idealize.ShloMosaic Idealize.ShloMosaic.ValueIdx

/-! The composed index maps of the broadcasts and the two contractions, at the index (b, i, j, r) and the hidden unit
    `h` (and the slot coordinate `k`), are the plain coordinates. -/

theorem lhs_a (b : Fin 8) (p q : Fin 256) (r : Fin 8) (h : Fin 128) (k : Fin 256) :
    lidx_main_v1 (idx_main_v4 (idx_main_v6 (lidx_main_v13 (ix4 b p q r) h))) k = ix3 b p k :=
  funext fun a => Fin.ext (by match a with | ⟨0, _⟩ => rfl | ⟨1, _⟩ => rfl | ⟨2, _⟩ => rfl)

theorem rhs_a (b : Fin 8) (p q : Fin 256) (r : Fin 8) (h : Fin 128) (k : Fin 256) :
    ridx_main_v1 (idx_main_v4 (idx_main_v6 (lidx_main_v13 (ix4 b p q r) h))) k = ix2 k h :=
  funext fun a => Fin.ext (by match a with | ⟨0, _⟩ => rfl | ⟨1, _⟩ => rfl)

theorem lhs_b (b : Fin 8) (p q : Fin 256) (r : Fin 8) (h : Fin 128) (k : Fin 256) :
    lidx_main_v3 (idx_main_v5 (idx_main_v7 (lidx_main_v13 (ix4 b p q r) h))) k = ix3 b q k :=
  funext fun a => Fin.ext (by match a with | ⟨0, _⟩ => rfl | ⟨1, _⟩ => rfl | ⟨2, _⟩ => rfl)

theorem rhs_b (b : Fin 8) (p q : Fin 256) (r : Fin 8) (h : Fin 128) (k : Fin 256) :
    ridx_main_v3 (idx_main_v5 (idx_main_v7 (lidx_main_v13 (ix4 b p q r) h))) k = ix2 k h :=
  funext fun a => Fin.ext (by match a with | ⟨0, _⟩ => rfl | ⟨1, _⟩ => rfl)

theorem bias1_idx (b : Fin 8) (p q : Fin 256) (r : Fin 8) (h : Fin 128) :
    idx_main_v9 (idx_main_v10 (lidx_main_v13 (ix4 b p q r) h)) = ix1 h :=
  funext fun a => Fin.ext (by match a with | ⟨0, _⟩ => rfl)

theorem w2_idx (b : Fin 8) (p q : Fin 256) (r : Fin 8) (h : Fin 128) :
    ridx_main_v13 (ix4 b p q r) h = ix2 h r :=
  funext fun a => Fin.ext (by match a with | ⟨0, _⟩ => rfl | ⟨1, _⟩ => rfl)

theorem bias2_idx (b : Fin 8) (p q : Fin 256) (r : Fin 8) :
    idx_main_v14 (idx_main_v15 (ix4 b p q r)) = ix1 r :=
  funext fun a => Fin.ext (by match a with | ⟨0, _⟩ => rfl)

/-- The reference's result is the specification of its arguments, with the two halves of W1 as the reference
    slices them. -/
theorem ref_eq (x0 : (⟨S8x256x256, .f32⟩ : BufTy).Contents (Elt Ideal)) (x1 : (⟨S512x128, .f32⟩ : BufTy).Contents (Elt Ideal))
    (x2 : (⟨S128, .f32⟩ : BufTy).Contents (Elt Ideal)) (x3 : (⟨S128x8, .f32⟩ : BufTy).Contents (Elt Ideal))
    (x4 : (⟨S8, .f32⟩ : BufTy).Contents (Elt Ideal)) :
    val_main_v22 (F := Ideal) x0 x1 x2 x3 x4
      = outArr x0 (val_main_v0 (F := Ideal) x1) (val_main_v2 (F := Ideal) x1) (fun h => x2 (ix1 h)) x3 (fun r => x4 (ix1 r)) := by
  funext i
  obtain ⟨b, p, q, r, rfl⟩ : ∃ (b : Fin 8) (p q : Fin 256) (r : Fin 8), i = ix4 b p q r := ⟨i 0, i 1, i 2, i 3, eq_ix4 i⟩
  rw [val_main_v22_apply, val_main_v21_apply, val_main_cst_0_apply, val_main_v20_apply, val_main_v19_apply, val_main_cst_apply,
    val_main_v18_apply, val_main_v17_apply, val_main_v16_apply, val_main_v13_apply, val_main_v15_apply, val_main_v14_apply]
  simp only [val_main_v12_apply, val_main_v11_apply, val_main_v8_apply, val_main_v6_apply, val_main_v4_apply, val_main_v1_apply,
    val_main_v7_apply, val_main_v5_apply, val_main_v3_apply, val_main_v10_apply, val_main_v9_apply, val_main_call0_v0_apply,
    val_main_call0_cst_apply]
  simp only [lhs_a, rhs_a, lhs_b, rhs_b, bias1_idx, w2_idx, bias2_idx, Ideal.hostDivf_def, Ideal.addf_def,
    Ideal.hostUnary_exp_def, Ideal.hostNegf_def, Ideal.negf_def, Ideal.maximumf_def, Ideal.ofBits_def]
  rw [logistic_spelled]
  rfl

end Cert.RelPred.Ref

end
-- ==== Proof.lean ====
/-
  The relation predictor: a two-stage kernel against its einsum reference, equal over the extended reals.

  Both programs compute, for a batch b, slots i and j and a relation r,
      logistic (Σ_h max (Σ_d slots[b,i,d]·W1[d,h] + Σ_d slots[b,j,d]·W1[256+d,h] + b1[h]) 0 · W2[h,r] + b2[r]).
  The kernel does it in two grids: the first writes the two projections of every slot, one batch per grid point; the
  second, per (batch, 64 first slots, 128 second slots), adds a row of one projection to a row of the other and the
  bias, clamps at zero, multiplies the flattened (8192, 128) block by W2, adds the second bias and applies the logistic
  function. The reference broadcasts the two projections to [8, 256, 256, 128] and contracts with W2 once.
  The two are the same tree of sums term by term — no sum is reordered and no factor moved — so the inputs'
  finiteness is not used. The narrowing of the matrix unit's operands to bf16 is the identity on the extended reals;
  the reference's quotient 1 / (1 + e^(-x)) is the logistic function.

  Kernel side: each region's write-backs are the blocks of one whole-array function of the region's operands and the
  blocks cover the array (RegionProj, RegionPair, over the stored values read at an index in Payload); the operands of
  the first region are read off the host operations before it (HostValues); KernelValue chains them.
  Reference side: its run, read one operation at a time, is the same function (RefSpec).
-/
import proofs.«175444_j18141941858697_1_alg».proof.Defs
import proofs.«175444_j18141941858697_1_alg».proof.Proof.Gen.Kernel
import proofs.«175444_j18141941858697_1_alg».proof.Proof.Gen.Kernel.Frame
import proofs.«175444_j18141941858697_1_alg».proof.Proof.Gen.KernelIdeal
import proofs.«175444_j18141941858697_1_alg».proof.Proof.Gen.KernelIdeal.Frame
import proofs.«175444_j18141941858697_1_alg».proof.Proof.Gen.ReferenceIdeal
import proofs.«175444_j18141941858697_1_alg».proof.Proof.Gen.ReferenceIdeal.Run
import proofs.«175444_j18141941858697_1_alg».proof.Proof.Gen.ReferenceIdeal.Read
import proofs.«175444_j18141941858697_1_alg».proof.Proof.Gen.Pre_finite_inputs
import proofs.«175444_j18141941858697_1_alg».proof.Proof.KernelValue
import proofs.«175444_j18141941858697_1_alg».proof.Proof.RefSpec
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the specification of the arguments in their result. -/
theorem algebraic : Cert.algebraic_KernelIdeal_ReferenceIdeal := by
  intro m ρ m' ρ' _ hagree
  refine ⟨_, Cert.RelPred.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.RelPred.Ref.ref_eq, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
